-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x3 : Shape := ⟨2, ![1048576, 3]⟩
abbrev S1048576x4 : Shape := ⟨2, ![1048576, 4]⟩
abbrev S1048576x7 : Shape := ⟨2, ![1048576, 7]⟩
abbrev S_ : Shape := ⟨0, ![]⟩

class Facts : Prop where
  bcast_S_S1048576x3 : S_.BroadcastsInDim S1048576x3 (![] : Fin 0 → Fin S1048576x3.rank)
  reducesTo_S1048576x3_S_d0_1 : S1048576x3.ReducesTo [0, 1] S_
  h_S_ : 0 < S_.numel
  bcast_S_S1048576x4 : S_.BroadcastsInDim S1048576x4 (![] : Fin 0 → Fin S1048576x4.rank)
  reducesTo_S1048576x4_S_d0_1 : S1048576x4.ReducesTo [0, 1] S_
  bcast_S_S1048576x7 : S_.BroadcastsInDim S1048576x7 (![] : Fin 0 → Fin S1048576x7.rank)
  reducesTo_S1048576x7_S_d0_1 : S1048576x7.ReducesTo [0, 1] S_

variable [Facts]

def fn_part1 {F : FTy → Type} [FloatOps F] (main_arg4 : FVec F S1048576x3 .f32) (main_arg5 : FVec F S1048576x4 .f32) (main_arg6 : FVec F S1048576x7 .f32) (main_v13 : IVec S_ 1) (main_v16 : IVec S1048576x4 1) : IVec S_ 1 :=
  let main_c_5 : IVec S_ 1 := constantI S_ 1 1#1
  let main_v17 : IVec S_ 1 := (fun x v => Host.reduce IntOp.andi x v reducesTo_S1048576x4_S_d0_1 h_S_) main_v16 main_c_5
  let main_v18 : IVec S_ 1 := andi main_v13 main_v17
  let main_v19 : FVec F S1048576x3 .f32 := Host.absf main_arg4
  let main_cst_6 : FVec F S_ .f32 := constant S_ .f32 0x7F800000#32
  let main_v20 : FVec F S1048576x3 .f32 := broadcastInDim S1048576x3 ![] bcast_S_S1048576x3 main_cst_6
  let main_v21 : IVec S1048576x3 1 := cmpf .olt main_v19 main_v20
  let main_c_7 : IVec S_ 1 := constantI S_ 1 1#1
  let main_v22 : IVec S_ 1 := (fun x v => Host.reduce IntOp.andi x v reducesTo_S1048576x3_S_d0_1 h_S_) main_v21 main_c_7
  let main_v23 : IVec S_ 1 := andi main_v18 main_v22
  let main_v24 : FVec F S1048576x4 .f32 := Host.absf main_arg5
  let main_cst_8 : FVec F S_ .f32 := constant S_ .f32 0x7F800000#32
  let main_v25 : FVec F S1048576x4 .f32 := broadcastInDim S1048576x4 ![] bcast_S_S1048576x4 main_cst_8
  let main_v26 : IVec S1048576x4 1 := cmpf .olt main_v24 main_v25
  let main_c_9 : IVec S_ 1 := constantI S_ 1 1#1
  let main_v27 : IVec S_ 1 := (fun x v => Host.reduce IntOp.andi x v reducesTo_S1048576x4_S_d0_1 h_S_) main_v26 main_c_9
  let main_v28 : IVec S_ 1 := andi main_v23 main_v27
  let main_v29 : FVec F S1048576x7 .f32 := Host.absf main_arg6
  let main_cst_10 : FVec F S_ .f32 := constant S_ .f32 0x7F800000#32
  let main_v30 : FVec F S1048576x7 .f32 := broadcastInDim S1048576x7 ![] bcast_S_S1048576x7 main_cst_10
  let main_v31 : IVec S1048576x7 1 := cmpf .olt main_v29 main_v30
  let main_c_11 : IVec S_ 1 := constantI S_ 1 1#1
  let main_v32 : IVec S_ 1 := (fun x v => Host.reduce IntOp.andi x v reducesTo_S1048576x7_S_d0_1 h_S_) main_v31 main_c_11
  let main_v33 : IVec S_ 1 := andi main_v28 main_v32
  main_v33

def fn {F : FTy → Type} [FloatOps F] (main_arg0 : FVec F S1048576x3 .f32) (main_arg1 : FVec F S1048576x4 .f32) (main_arg2 : FVec F S1048576x3 .f32) (main_arg3 : FVec F S1048576x4 .f32) (main_arg4 : FVec F S1048576x3 .f32) (main_arg5 : FVec F S1048576x4 .f32) (main_arg6 : FVec F S1048576x7 .f32) : IVec S_ 1 :=
  let main_v0 : FVec F S1048576x3 .f32 := Host.absf main_arg0
  let main_cst : FVec F S_ .f32 := constant S_ .f32 0x7F800000#32
  let main_v1 : FVec F S1048576x3 .f32 := broadcastInDim S1048576x3 ![] bcast_S_S1048576x3 main_cst
  let main_v2 : IVec S1048576x3 1 := cmpf .olt main_v0 main_v1
  let main_c : IVec S_ 1 := constantI S_ 1 1#1
  let main_v3 : IVec S_ 1 := (fun x v => Host.reduce IntOp.andi x v reducesTo_S1048576x3_S_d0_1 h_S_) main_v2 main_c
  let main_v4 : FVec F S1048576x4 .f32 := Host.absf main_arg1
  let main_cst_0 : FVec F S_ .f32 := constant S_ .f32 0x7F800000#32
  let main_v5 : FVec F S1048576x4 .f32 := broadcastInDim S1048576x4 ![] bcast_S_S1048576x4 main_cst_0
  let main_v6 : IVec S1048576x4 1 := cmpf .olt main_v4 main_v5
  let main_c_1 : IVec S_ 1 := constantI S_ 1 1#1
  let main_v7 : IVec S_ 1 := (fun x v => Host.reduce IntOp.andi x v reducesTo_S1048576x4_S_d0_1 h_S_) main_v6 main_c_1
  let main_v8 : IVec S_ 1 := andi main_v3 main_v7
  let main_v9 : FVec F S1048576x3 .f32 := Host.absf main_arg2
  let main_cst_2 : FVec F S_ .f32 := constant S_ .f32 0x7F800000#32
  let main_v10 : FVec F S1048576x3 .f32 := broadcastInDim S1048576x3 ![] bcast_S_S1048576x3 main_cst_2
  let main_v11 : IVec S1048576x3 1 := cmpf .olt main_v9 main_v10
  let main_c_3 : IVec S_ 1 := constantI S_ 1 1#1
  let main_v12 : IVec S_ 1 := (fun x v => Host.reduce IntOp.andi x v reducesTo_S1048576x3_S_d0_1 h_S_) main_v11 main_c_3
  let main_v13 : IVec S_ 1 := andi main_v8 main_v12
  let main_v14 : FVec F S1048576x4 .f32 := Host.absf main_arg3
  let main_cst_4 : FVec F S_ .f32 := constant S_ .f32 0x7F800000#32
  let main_v15 : FVec F S1048576x4 .f32 := broadcastInDim S1048576x4 ![] bcast_S_S1048576x4 main_cst_4
  let main_v16 : IVec S1048576x4 1 := cmpf .olt main_v14 main_v15
  fn_part1 (F := F) main_arg4 main_arg5 main_arg6 main_v13 main_v16
-- ==== Kernel.lean ====
abbrev S1048576x3 : Shape := ⟨2, ![1048576, 3]⟩
abbrev S1048576x4 : Shape := ⟨2, ![1048576, 4]⟩
abbrev S1048576x7 : Shape := ⟨2, ![1048576, 7]⟩
abbrev S2x8x128 : Shape := ⟨3, ![2, 8, 128]⟩
abbrev S2048x3 : Shape := ⟨2, ![2048, 3]⟩
abbrev S2048x4 : Shape := ⟨2, ![2048, 4]⟩
abbrev S2048x7 : Shape := ⟨2, ![2048, 7]⟩
abbrev S1x8x128 : Shape := ⟨3, ![1, 8, 128]⟩
abbrev S2048 : Shape := ⟨1, ![2048]⟩
abbrev S2048x1 : Shape := ⟨2, ![2048, 1]⟩
abbrev S1 : Shape := ⟨1, ![1]⟩
abbrev S1x1 : Shape := ⟨2, ![1, 1]⟩
abbrev S8x128 : Shape := ⟨2, ![8, 128]⟩
abbrev S2x1x1 : Shape := ⟨3, ![2, 1, 1]⟩
abbrev S2 : Shape := ⟨1, ![2]⟩
abbrev S_ : Shape := ⟨0, ![]⟩

abbrev nBuf : Space → Nat
  | .hbm => 14
  | .vmem => 16
  | .smem => 0
  | _ => 0

abbrev bufTy : (tb : Table) → Fin (tcTables nBuf tb) → BufTy
  | .hbm, ⟨0, _⟩ => ⟨S1048576x3, .f32⟩
  | .hbm, ⟨1, _⟩ => ⟨S1048576x4, .f32⟩
  | .hbm, ⟨2, _⟩ => ⟨S1048576x3, .f32⟩
  | .hbm, ⟨3, _⟩ => ⟨S1048576x4, .f32⟩
  | .hbm, ⟨4, _⟩ => ⟨S1048576x3, .f32⟩
  | .hbm, ⟨5, _⟩ => ⟨S1048576x4, .f32⟩
  | .hbm, ⟨6, _⟩ => ⟨S1048576x7, .f32⟩
  | .hbm, ⟨7, _⟩ => ⟨S2x8x128, .f32⟩
  | .hbm, ⟨8, _⟩ => ⟨S2x1x1, .f32⟩
  | .hbm, ⟨9, _⟩ => ⟨S2, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .local _ .vmem, ⟨0, _⟩ => ⟨S2048x3, .f32⟩
  | .local _ .vmem, ⟨1, _⟩ => ⟨S2048x3, .f32⟩
  | .local _ .vmem, ⟨2, _⟩ => ⟨S2048x4, .f32⟩
  | .local _ .vmem, ⟨3, _⟩ => ⟨S2048x4, .f32⟩
  | .local _ .vmem, ⟨4, _⟩ => ⟨S2048x3, .f32⟩
  | .local _ .vmem, ⟨5, _⟩ => ⟨S2048x3, .f32⟩
  | .local _ .vmem, ⟨6, _⟩ => ⟨S2048x4, .f32⟩
  | .local _ .vmem, ⟨7, _⟩ => ⟨S2048x4, .f32⟩
  | .local _ .vmem, ⟨8, _⟩ => ⟨S2048x3, .f32⟩
  | .local _ .vmem, ⟨9, _⟩ => ⟨S2048x3, .f32⟩
  | .local _ .vmem, ⟨10, _⟩ => ⟨S2048x4, .f32⟩
  | .local _ .vmem, ⟨11, _⟩ => ⟨S2048x4, .f32⟩
  | .local _ .vmem, ⟨12, _⟩ => ⟨S2048x7, .f32⟩
  | .local _ .vmem, ⟨13, _⟩ => ⟨S2048x7, .f32⟩
  | .local _ .vmem, ⟨14, _⟩ => ⟨S1x8x128, .f32⟩
  | .local _ .vmem, ⟨15, _⟩ => ⟨S1x8x128, .f32⟩
  | _, _ => ⟨S1048576x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 256], ![false, false]⟩

def cc0_transform_0 (i : grid0.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x4 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x3 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x4 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x7 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  inb_S1x8x128_S1x8x128_0_0_0 : ∀ a, (![0, 0, 0] : Fin 3 → Nat) a + S1x8x128.size a ≤ S1x8x128.size a
  h_S1x8x128 : 0 < S1x8x128.numel
  inb_S2048x7_S2048x7_0_0 : ∀ a, (![0, 0] : Fin 2 → Nat) a + S2048x7.size a ≤ S2048x7.size a
  h_S2048x7 : 0 < S2048x7.numel
  slices_S2048x7_o0_0_S2048x3 : S2048x7.Slices ![0, 0] S2048x3
  slices_S2048x7_o0_3_S2048x4 : S2048x7.Slices ![0, 3] S2048x4
  reduces_S2048x4_S2048 : S2048x4.Reduces [1] S2048
  shapeCasts_S2048_S2048x1 : S2048.ShapeCasts S2048x1
  broadcasts_S2048x1_S2048x4 : S2048x1.Broadcasts S2048x4
  inb_S2048x3_S2048x3_0_0 : ∀ a, (![0, 0] : Fin 2 → Nat) a + S2048x3.size a ≤ S2048x3.size a
  h_S2048x3 : 0 < S2048x3.numel
  reduces_S2048x3_S2048 : S2048x3.Reduces [1] S2048
  inb_S2048x4_S2048x4_0_0 : ∀ a, (![0, 0] : Fin 2 → Nat) a + S2048x4.size a ≤ S2048x4.size a
  h_S2048x4 : 0 < S2048x4.numel
  reduces_S2048x1_S1 : S2048x1.Reduces [0] S1
  shapeCasts_S1_S1x1 : S1.ShapeCasts S1x1
  shapeCasts_S1x1_S1x1 : S1x1.ShapeCasts S1x1
  broadcasts_S1x1_S8x128 : S1x1.Broadcasts S8x128
  shapeCasts_S8x128_S1x8x128 : S8x128.ShapeCasts S1x8x128
  shapeCasts_S1x8x128_S1x8x128 : S1x8x128.ShapeCasts S1x8x128
  slices_S2x8x128_S2x1x1_0_0_0 : S2x8x128.Slices ![0, 0, 0] S2x1x1
  shapeCasts_S2x1x1_S2 : S2x1x1.ShapeCasts S2
  reducesTo_S2_S_d0 : S2.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x3.size a ≤ S1048576x3.size a
  hwx0_0 : ∀ i : grid0.Coords, EltTy.bits .f32 = 32 ∨ (Rect.block (s := S1048576x3) S2048x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x4.size a ≤ S1048576x4.size a
  hwx0_1 : ∀ i : grid0.Coords, EltTy.bits .f32 = 32 ∨ (Rect.block (s := S1048576x4) S2048x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x3.size a ≤ S1048576x3.size a
  hwx0_2 : ∀ i : grid0.Coords, EltTy.bits .f32 = 32 ∨ (Rect.block (s := S1048576x3) S2048x3.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x4.size a ≤ S1048576x4.size a
  hwx0_3 : ∀ i : grid0.Coords, EltTy.bits .f32 = 32 ∨ (Rect.block (s := S1048576x4) S2048x4.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x3.size a ≤ S1048576x3.size a
  hwx0_4 : ∀ i : grid0.Coords, EltTy.bits .f32 = 32 ∨ (Rect.block (s := S1048576x3) S2048x3.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x4.size a ≤ S1048576x4.size a
  hwx0_5 : ∀ i : grid0.Coords, EltTy.bits .f32 = 32 ∨ (Rect.block (s := S1048576x4) S2048x4.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x7.size a ≤ S1048576x7.size a
  hwx0_6 : ∀ i : grid0.Coords, EltTy.bits .f32 = 32 ∨ (Rect.block (s := S1048576x7) S2048x7.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x8x128.size a ≤ S2x8x128.size a
  hwx0_7 : ∀ i : grid0.Coords, EltTy.bits .f32 = 32 ∨ (Rect.block (s := S2x8x128) S1x8x128.size (cc0_transform_7 i) (hinb0_7 i)).WholeWords (EltTy.packing .f32)

variable [Facts₀]

abbrev win0_0 : Pipeline.Window sig grid0 :=
  Pipeline.Window.ofSpec (Memref.whole main_arg0) S2048x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2048x4.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S2048x3.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S2048x4.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S2048x7.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0) S1x8x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S1048576x3 : Shape := ⟨2, ![1048576, 3]⟩
abbrev S1048576x4 : Shape := ⟨2, ![1048576, 4]⟩
abbrev S1048576x7 : Shape := ⟨2, ![1048576, 7]⟩
abbrev S_ : Shape := ⟨0, ![]⟩
abbrev S1048576 : Shape := ⟨1, ![1048576]⟩
abbrev S1048576x1 : Shape := ⟨2, ![1048576, 1]⟩

abbrev nBuf : Space → Nat
  | .hbm => 76
  | .vmem => 0
  | .smem => 0
  | _ => 0

abbrev bufTy : (tb : Table) → Fin (tcTables nBuf tb) → BufTy
  | .hbm, ⟨0, _⟩ => ⟨S1048576x3, .f32⟩
  | .hbm, ⟨1, _⟩ => ⟨S1048576x4, .f32⟩
  | .hbm, ⟨2, _⟩ => ⟨S1048576x3, .f32⟩
  | .hbm, ⟨3, _⟩ => ⟨S1048576x4, .f32⟩
  | .hbm, ⟨4, _⟩ => ⟨S1048576x3, .f32⟩
  | .hbm, ⟨5, _⟩ => ⟨S1048576x4, .f32⟩
  | .hbm, ⟨6, _⟩ => ⟨S1048576x7, .f32⟩
  | .hbm, ⟨7, _⟩ => ⟨S1048576x3, .f32⟩
  | .hbm, ⟨8, _⟩ => ⟨S1048576x4, .f32⟩
  | .hbm, ⟨9, _⟩ => ⟨S1048576x4, .f32⟩
  | .hbm, ⟨10, _⟩ => ⟨S_, .f32⟩
  | .hbm, ⟨11, _⟩ => ⟨S1048576, .f32⟩
  | .hbm, ⟨12, _⟩ => ⟨S1048576, .f32⟩
  | .hbm, ⟨13, _⟩ => ⟨S_, .f32⟩
  | .hbm, ⟨14, _⟩ => ⟨S1048576, .f32⟩
  | .hbm, ⟨15, _⟩ => ⟨S1048576, .f32⟩
  | .hbm, ⟨16, _⟩ => ⟨S1048576x1, .f32⟩
  | .hbm, ⟨17, _⟩ => ⟨S1048576x4, .f32⟩
  | .hbm, ⟨18, _⟩ => ⟨S1048576x4, .f32⟩
  | .hbm, ⟨19, _⟩ => ⟨S1048576x3, .f32⟩
  | .hbm, ⟨20, _⟩ => ⟨S1048576x3, .f32⟩
  | .hbm, ⟨21, _⟩ => ⟨S_, .f32⟩
  | .hbm, ⟨22, _⟩ => ⟨S1048576, .f32⟩
  | .hbm, ⟨23, _⟩ => ⟨S1048576, .f32⟩
  | .hbm, ⟨24, _⟩ => ⟨S1048576x4, .f32⟩
  | .hbm, ⟨25, _⟩ => ⟨S1048576x4, .f32⟩
  | .hbm, ⟨26, _⟩ => ⟨S_, .f32⟩
  | .hbm, ⟨27, _⟩ => ⟨S1048576, .f32⟩
  | .hbm, ⟨28, _⟩ => ⟨S1048576, .f32⟩
  | .hbm, ⟨29, _⟩ => ⟨S_, .f32⟩
  | .hbm, ⟨30, _⟩ => ⟨S1048576, .f32⟩
  | .hbm, ⟨31, _⟩ => ⟨S1048576, .f32⟩
  | .hbm, ⟨32, _⟩ => ⟨S1048576, .f32⟩
  | .hbm, ⟨33, _⟩ => ⟨S1048576x3, .f32⟩
  | .hbm, ⟨34, _⟩ => ⟨S1048576x3, .f32⟩
  | .hbm, ⟨35, _⟩ => ⟨S_, .f32⟩
  | .hbm, ⟨36, _⟩ => ⟨S1048576, .f32⟩
  | .hbm, ⟨37, _⟩ => ⟨S1048576, .f32⟩
  | .hbm, ⟨38, _⟩ => ⟨S1048576x4, .f32⟩
  | .hbm, ⟨39, _⟩ => ⟨S1048576x4, .f32⟩
  | .hbm, ⟨40, _⟩ => ⟨S_, .f32⟩
  | .hbm, ⟨41, _⟩ => ⟨S1048576, .f32⟩
  | .hbm, ⟨42, _⟩ => ⟨S1048576, .f32⟩
  | .hbm, ⟨43, _⟩ => ⟨S_, .f32⟩
  | .hbm, ⟨44, _⟩ => ⟨S1048576, .f32⟩
  | .hbm, ⟨45, _⟩ => ⟨S1048576, .f32⟩
  | .hbm, ⟨46, _⟩ => ⟨S1048576, .f32⟩
  | .hbm, ⟨47, _⟩ => ⟨S1048576x3, .f32⟩
  | .hbm, ⟨48, _⟩ => ⟨S1048576x3, .f32⟩
  | .hbm, ⟨49, _⟩ => ⟨S_, .f32⟩
  | .hbm, ⟨50, _⟩ => ⟨S1048576, .f32⟩
  | .hbm, ⟨51, _⟩ => ⟨S1048576, .f32⟩
  | .hbm, ⟨52, _⟩ => ⟨S1048576x4, .f32⟩
  | .hbm, ⟨53, _⟩ => ⟨S1048576x4, .f32⟩
  | .hbm, ⟨54, _⟩ => ⟨S_, .f32⟩
  | .hbm, ⟨55, _⟩ => ⟨S1048576, .f32⟩
  | .hbm, ⟨56, _⟩ => ⟨S1048576, .f32⟩
  | .hbm, ⟨57, _⟩ => ⟨S_, .f32⟩
  | .hbm, ⟨58, _⟩ => ⟨S1048576, .f32⟩
  | .hbm, ⟨59, _⟩ => ⟨S1048576, .f32⟩
  | .hbm, ⟨60, _⟩ => ⟨S1048576, .f32⟩
  | .hbm, ⟨61, _⟩ => ⟨S_, .f32⟩
  | .hbm, ⟨62, _⟩ => ⟨S1048576, .f32⟩
  | .hbm, ⟨63, _⟩ => ⟨S1048576, .f32⟩
  | .hbm, ⟨64, _⟩ => ⟨S_, .f32⟩
  | .hbm, ⟨65, _⟩ => ⟨S1048576, .f32⟩
  | .hbm, ⟨66, _⟩ => ⟨S1048576, .f32⟩
  | .hbm, ⟨67, _⟩ => ⟨S1048576, .f32⟩
  | .hbm, ⟨68, _⟩ => ⟨S_, .f32⟩
  | .hbm, ⟨69, _⟩ => ⟨S1048576, .f32⟩
  | .hbm, ⟨70, _⟩ => ⟨S1048576, .f32⟩
  | .hbm, ⟨71, _⟩ => ⟨S1048576, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | _, _ => ⟨S1048576x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_cst_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_8 : Ref sig .tc := ⟨.hbm, 54, rfl⟩
abbrev main_v38 : Ref sig .tc := ⟨.hbm, 55, rfl⟩
abbrev main_v39 : Ref sig .tc := ⟨.hbm, 56, rfl⟩
abbrev main_cst_9 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_10 : Ref sig .tc := ⟨.hbm, 61, rfl⟩
abbrev main_v43 : Ref sig .tc := ⟨.hbm, 62, rfl⟩
abbrev main_v44 : Ref sig .tc := ⟨.hbm, 63, rfl⟩
abbrev main_cst_11 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_12 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_13 : Ref sig .tc := ⟨.hbm, 72, rfl⟩
abbrev main_v51 : Ref sig .tc := ⟨.hbm, 73, rfl⟩
abbrev main_cst_14 : Ref sig .tc := ⟨.hbm, 74, rfl⟩
abbrev main_v52 : Ref sig .tc := ⟨.hbm, 75, rfl⟩

abbrev nD : Nat := 1
abbrev τ : Topo := Topo.v7x

variable {F : FTy → Type} [FloatOps F]

class Facts₀ : Prop where
  slices_S1048576x7_S1048576x3_0_0 : S1048576x7.Slices ![0, 0] S1048576x3
  slices_S1048576x7_S1048576x4_0_3 : S1048576x7.Slices ![0, 3] S1048576x4
  reducesTo_S1048576x4_S1048576_d1 : S1048576x4.ReducesTo [1] S1048576
  h_S_ : 0 < S_.numel
  bcast_S_S1048576 : S_.BroadcastsInDim S1048576 (![] : Fin 0 → Fin S1048576.rank)
  bcast_S1048576_S1048576x1_0 : S1048576.BroadcastsInDim S1048576x1 (![0] : Fin 1 → Fin S1048576x1.rank)
  bcast_S1048576x1_S1048576x4_0_1 : S1048576x1.BroadcastsInDim S1048576x4 (![0, 1] : Fin 2 → Fin S1048576x4.rank)
  reducesTo_S1048576x3_S1048576_d1 : S1048576x3.ReducesTo [1] S1048576
  reducesTo_S1048576_S_d0 : S1048576.ReducesTo [0] S_

variable [Facts₀]

class Facts : Prop extends Facts₀ where

variable [Facts]
-- ==== Proof.RowLoss.lean ====
/-
  The per-sample pose loss as ONE function of a sample's seven rows, on the extended reals, and the sum of it
  over all samples. A sample is three predicted positions (three coordinates each), three predicted quaternions (four
  coordinates each) and a ground-truth row of seven: a position followed by a quaternion. The ground-truth quaternion is
  normalised by its length, kept from below by a small constant; each prediction's distance to the ground truth is
  the square root of the sum of the squared coordinate differences; the loss is the weighted sum of the six distances.
  Both programs compute this number for every sample and add the numbers up; they differ only in how the additions
  are grouped, and addition on the extended reals is commutative and associative.
-/
import Idealize.ShloMosaic.PureOps.Ideal
import Idealize.ShloMosaic.PureOps.Ideal.Laws
import Idealize.ShloMosaic.Lib.ValueIdx

noncomputable section

open scoped BigOperators

namespace PoseLoss

open Idealize.ShloMosaic Idealize.ShloMosaic.ValueIdx

/-- The position part of a ground-truth row: its first three coordinates. -/
def pos (g : Fin 7 → EReal) : Fin 3 → EReal := fun k => g ⟨k.val, by have := k.isLt; omega⟩

/-- The quaternion part of a ground-truth row: its last four coordinates. -/
def quat (g : Fin 7 → EReal) : Fin 4 → EReal := fun k => g ⟨3 + k.val, by have := k.isLt; omega⟩

/-- The ground-truth quaternion divided by its length, the length kept from below by the constant. -/
def quatN (g : Fin 7 → EReal) : Fin 4 → EReal := fun k =>
  Ideal.div (quat g k) (max (Ideal.sqrt (∑ j : Fin 4, quat g j * quat g j)) (Ideal.ofBits .f32 0x2B8CBCCC#32))

/-- The distance between two points of three coordinates. -/
def dist3 (a p : Fin 3 → EReal) : EReal := Ideal.sqrt (∑ k : Fin 3, (a k - p k) * (a k - p k))

/-- The distance between two points of four coordinates. -/
def dist4 (a q : Fin 4 → EReal) : EReal := Ideal.sqrt (∑ k : Fin 4, (a k - q k) * (a k - q k))

/-- One sample's loss: each of the three predictions' position distance plus its weighted quaternion distance, the
    three weighted and added. -/
def rowLoss (a0 : Fin 3 → EReal) (a1 : Fin 4 → EReal) (a2 : Fin 3 → EReal) (a3 : Fin 4 → EReal)
    (a4 : Fin 3 → EReal) (a5 : Fin 4 → EReal) (g : Fin 7 → EReal) : EReal :=
  (Ideal.ofBits .f32 0x3E99999A#32 * (dist3 a0 (pos g) + Ideal.ofBits .f32 0x43160000#32 * dist4 a1 (quatN g))
    + Ideal.ofBits .f32 0x3E99999A#32 * (dist3 a2 (pos g) + Ideal.ofBits .f32 0x43160000#32 * dist4 a3 (quatN g)))
    + Ideal.ofBits .f32 0x3F800000#32 * (dist3 a4 (pos g) + Ideal.ofBits .f32 0x43FA0000#32 * dist4 a5 (quatN g))

/-- Row `R` of a two-axis array. -/
def rowOf {n d : ℕ} (A : (⟨2, ![n, d]⟩ : Shape).Idx → EReal) (R : Fin n) : Fin d → EReal := fun k => A (ix2 R k)

/-- Sample `R`'s loss, read off the seven argument arrays. -/
def sampleLoss {n : ℕ} (A0 : (⟨2, ![n, 3]⟩ : Shape).Idx → EReal) (A1 : (⟨2, ![n, 4]⟩ : Shape).Idx → EReal)
    (A2 : (⟨2, ![n, 3]⟩ : Shape).Idx → EReal) (A3 : (⟨2, ![n, 4]⟩ : Shape).Idx → EReal)
    (A4 : (⟨2, ![n, 3]⟩ : Shape).Idx → EReal) (A5 : (⟨2, ![n, 4]⟩ : Shape).Idx → EReal)
    (A6 : (⟨2, ![n, 7]⟩ : Shape).Idx → EReal) (R : Fin n) : EReal :=
  rowLoss (rowOf A0 R) (rowOf A1 R) (rowOf A2 R) (rowOf A3 R) (rowOf A4 R) (rowOf A5 R) (rowOf A6 R)

/-- The mean loss: the samples' losses added up and divided by the constant both programs divide by (the number of
    samples as a float). -/
def meanLoss {n : ℕ} (A0 : (⟨2, ![n, 3]⟩ : Shape).Idx → EReal) (A1 : (⟨2, ![n, 4]⟩ : Shape).Idx → EReal)
    (A2 : (⟨2, ![n, 3]⟩ : Shape).Idx → EReal) (A3 : (⟨2, ![n, 4]⟩ : Shape).Idx → EReal)
    (A4 : (⟨2, ![n, 3]⟩ : Shape).Idx → EReal) (A5 : (⟨2, ![n, 4]⟩ : Shape).Idx → EReal)
    (A6 : (⟨2, ![n, 7]⟩ : Shape).Idx → EReal) : EReal :=
  Ideal.div (∑ R : Fin n, sampleLoss A0 A1 A2 A3 A4 A5 A6 R) (Ideal.ofBits .f32 0x49800000#32)

end PoseLoss

end
-- ==== Proof.ColumnOps.lean ====
/-
  Layout operations of a column of per-row numbers, read at an index given by coordinates: a vector of `n` numbers
  recast as an `n × 1` column; a column broadcast along its rows to `n × d`; a row sum and a column sum as sums over the
  dropped coordinate; a `1 × 1` array broadcast to `a × b`; a slice of columns; and the sum over a rank-one index set
  as the sum over its one coordinate.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace PoseLoss.ColumnOps

open Idealize.ShloMosaic Idealize.ShloMosaic.ValueIdx

variable {α : Type}

/-- A vector of `n` entries recast as an `n × 1` column reads, at `(r, u)`, entry `r`. -/
theorem shapeCast_col_apply {n : ℕ} (v : (⟨1, ![n]⟩ : Shape).Idx → α)
    (h : (⟨1, ![n]⟩ : Shape).ShapeCasts ⟨2, ![n, 1]⟩) (r : Fin n) (u : Fin 1) :
    shapeCast ⟨2, ![n, 1]⟩ v h (ix2 r u) = v (ix1 r) :=
  shapeCast_apply v h _ _ (by
    have hu : u.val = 0 := by omega
    rw [Shape.rowMajor_val_two, Shape.rowMajor_val_one]
    show r.val = r.val * 1 + u.val
    rw [hu, Nat.mul_one, Nat.add_zero])

/-- An `n × 1` column broadcast to `n × d` reads, at `(r, k)`, the column's entry `r`. -/
theorem broadcastTo_col_apply {n d : ℕ} (v : (⟨2, ![n, 1]⟩ : Shape).Idx → α)
    (h : (⟨2, ![n, 1]⟩ : Shape).Broadcasts ⟨2, ![n, d]⟩) (r : Fin n) (k : Fin d) :
    broadcastTo ⟨2, ![n, d]⟩ v h (ix2 r k) = v (ix2 r (0 : Fin 1)) := by
  refine broadcastTo_apply v h (ix2 r k) (ix2 r (0 : Fin 1)) fun ax => ?_
  match ax with
  | ⟨0, _⟩ =>
    show r.val = if n = 1 then 0 else r.val
    split
    · have := r.isLt; omega
    · rfl
  | ⟨1, _⟩ =>
    show 0 = if (1 : ℕ) = 1 then 0 else k.val
    rw [if_pos rfl]

/-- A `1 × 1` array broadcast to `a × b` reads its one entry everywhere. -/
theorem broadcastTo_one_apply {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => show 0 = if (1 : ℕ) = 1 then 0 else p.val; rw [if_pos rfl]
  | ⟨1, _⟩ => show 0 = if (1 : ℕ) = 1 then 0 else c.val; rw [if_pos rfl]

/-- The sum along the rows of an `n × d` array of extended reals, at row `r`: the sum of that row's `d` entries. -/
theorem rowSum_apply {n d : ℕ} (v : FVec Ideal ⟨2, ![n, d]⟩ .f32)
    (h : (⟨2, ![n, d]⟩ : Shape).Reduces [1] ⟨1, ![n]⟩) (hφ : FKind.Formats .f32)
    (hacc : (0x00000000#32 : BitVec 32) = 0x00000000#32) (r : Fin n) :
    multiReduction .add [1] ⟨1, ![n]⟩ v 0x00000000#32 h hφ hacc (ix1 r) = ∑ k : Fin d, v (ix2 r k) := by
  refine (Ideal.multiReduction_add_single v 0x00000000#32 h hφ hacc (ix1 r)).trans ?_
  refine Finset.sum_congr rfl fun k _ => congrArg v (funext fun c => Fin.ext ?_)
  match c with
  | ⟨0, _⟩ => rfl
  | ⟨1, _⟩ => rfl

/-- The sum down an `n × 1` column of extended reals: the sum of its `n` entries. -/
theorem colSum_apply {n : ℕ} (v : FVec Ideal ⟨2, ![n, 1]⟩ .f32)
    (h : (⟨2, ![n, 1]⟩ : Shape).Reduces [0] ⟨1, ![1]⟩) (hφ : FKind.Formats .f32)
    (hacc : (0x00000000#32 : BitVec 32) = 0x00000000#32) (u : Fin 1) :
    multiReduction .add [0] ⟨1, ![1]⟩ v 0x00000000#32 h hφ hacc (ix1 u) = ∑ r : Fin n, v (ix2 r (0 : Fin 1)) := by
  refine (Ideal.multiReduction_add_single v 0x00000000#32 h hφ hacc (ix1 u)).trans ?_
  refine Finset.sum_congr rfl fun r _ => congrArg v (funext fun c => Fin.ext ?_)
  match c with
  | ⟨0, _⟩ => rfl
  | ⟨1, _⟩ => show u.val = 0; omega

/-- Columns `o … o + m - 1` cut out of an `n × d` array read, at `(r, k)`, the source at `(r, o + k)`. -/
theorem sliceCols_apply {n d m : ℕ} (o : ℕ) (X : (⟨2, ![n, d]⟩ : Shape).Idx → α)
    (h : (⟨2, ![n, d]⟩ : Shape).Slices ![0, o] ⟨2, ![n, m]⟩) (r : Fin n) (k : Fin m) (k' : Fin d)
    (hk : k'.val = o + k.val) :
    extractStridedSlice ⟨2, ![n, m]⟩ ![0, o] X h (ix2 r k) = X (ix2 r k') :=
  slice2_axis1_apply o X h r k k' hk

/-- A rank-one index set is its one coordinate's. -/
def idxEquiv1 {n : ℕ} : (⟨1, ![n]⟩ : Shape).Idx ≃ Fin n where
  toFun i := i 0
  invFun a := ix1 a
  left_inv i := (eq_ix1 i).symm
  right_inv _ := rfl

/-- So a sum over it is the sum over the coordinate. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

end PoseLoss.ColumnOps

end
-- ==== Proof.RefValue.lean ====
/-
  The reference, one sample at a time. Its program works on whole arrays: it cuts the ground-truth array into its
  position and quaternion columns, normalises the quaternion rows, takes the six row-wise distances, weights and adds
  them into one number per sample, sums the samples and divides. Read at sample `R`, every stage is the matching piece
  of the per-sample loss of the seven rows `R`; the last two stages are the sum over the samples and the division.
-/
import proofs.«143192_j90555090468868_1_alg».proof.Proof.Gen.ReferenceIdeal.Read
import proofs.«143192_j90555090468868_1_alg».proof.Proof.RowLoss
import proofs.«143192_j90555090468868_1_alg».proof.Proof.ColumnOps

noncomputable section

open scoped BigOperators

namespace Cert.ReferenceIdeal.RefValue

open Cert.ReferenceIdeal Cert.ReferenceIdeal.Read Idealize.ShloMosaic Idealize.ShloMosaic.ValueIdx PoseLoss

abbrev A3 := (⟨S1048576x3, .f32⟩ : BufTy).Contents (Elt Ideal)
abbrev A4 := (⟨S1048576x4, .f32⟩ : BufTy).Contents (Elt Ideal)
abbrev A7 := (⟨S1048576x7, .f32⟩ : BufTy).Contents (Elt Ideal)

/-! ## Where each stage reads its operand, at a sample's row -/

theorem idx_pos (R : Fin 1048576) (k : Fin 3) :
    idx_main_v0 (ix2 R k) = ix2 R (⟨k.val, by have := k.isLt; omega⟩ : Fin 7) :=
  funext fun a => Fin.ext (by match a with | ⟨0, _⟩ => rfl | ⟨1, _⟩ => rfl)

theorem idx_quat (R : Fin 1048576) (k : Fin 4) :
    idx_main_v1 (ix2 R k) = ix2 R (⟨3 + k.val, by have := k.isLt; omega⟩ : Fin 7) :=
  funext fun a => Fin.ext (by match a with | ⟨0, _⟩ => rfl | ⟨1, _⟩ => rfl)

theorem idx_col (R : Fin 1048576) (k : Fin 4) : idx_main_v7 (idx_main_v8 (ix2 R k)) = ix1 R :=
  funext fun a => Fin.ext (by match a with | ⟨0, _⟩ => rfl)

theorem idx_row3 (R : Fin 1048576) (k : Fin 4) : idx_main_v3 (ix1 R) k = ix2 R k :=
  funext fun a => Fin.ext (by match a with | ⟨0, _⟩ => rfl | ⟨1, _⟩ => rfl)
theorem idx_row12 (R : Fin 1048576) (k : Fin 3) : idx_main_v12 (ix1 R) k = ix2 R k :=
  funext fun a => Fin.ext (by match a with | ⟨0, _⟩ => rfl | ⟨1, _⟩ => rfl)
theorem idx_row16 (R : Fin 1048576) (k : Fin 4) : idx_main_v16 (ix1 R) k = ix2 R k :=
  funext fun a => Fin.ext (by match a with | ⟨0, _⟩ => rfl | ⟨1, _⟩ => rfl)
theorem idx_row23 (R : Fin 1048576) (k : Fin 3) : idx_main_v23 (ix1 R) k = ix2 R k :=
  funext fun a => Fin.ext (by match a with | ⟨0, _⟩ => rfl | ⟨1, _⟩ => rfl)
theorem idx_row27 (R : Fin 1048576) (k : Fin 4) : idx_main_v27 (ix1 R) k = ix2 R k :=
  funext fun a => Fin.ext (by match a with | ⟨0, _⟩ => rfl | ⟨1, _⟩ => rfl)
theorem idx_row34 (R : Fin 1048576) (k : Fin 3) : idx_main_v34 (ix1 R) k = ix2 R k :=
  funext fun a => Fin.ext (by match a with | ⟨0, _⟩ => rfl | ⟨1, _⟩ => rfl)
theorem idx_row38 (R : Fin 1048576) (k : Fin 4) : idx_main_v38 (ix1 R) k = ix2 R k :=
  funext fun a => Fin.ext (by match a with | ⟨0, _⟩ => rfl | ⟨1, _⟩ => rfl)

/-! ## The ground truth's two parts -/

/-- The position columns at sample `R`: the first three entries of the ground-truth row. -/
theorem pos_eq (x6 : A7) (R : Fin 1048576) (k : Fin 3) :
    val_main_v0 (F := Ideal) x6 (ix2 R k) = pos (rowOf x6 R) k := by
  rw [val_main_v0_apply, idx_pos]; rfl

/-- The quaternion columns at sample `R`: the last four entries of the ground-truth row. -/
theorem quat_eq (x6 : A7) (R : Fin 1048576) (k : Fin 4) :
    val_main_v1 (F := Ideal) x6 (ix2 R k) = quat (rowOf x6 R) k := by
  rw [val_main_v1_apply, idx_quat]; rfl

/-- The normalised quaternion at sample `R`: the quaternion entry over the row's length kept above the constant. -/
theorem quatN_eq (x6 : A7) (R : Fin 1048576) (k : Fin 4) :
    val_main_v9 (F := Ideal) x6 (ix2 R k) = quatN (rowOf x6 R) k := by
  rw [val_main_v9_apply, val_main_v8_apply, val_main_v7_apply, idx_col, val_main_v6_apply, val_main_v4_apply,
    val_main_v3_apply, val_main_v5_apply, quat_eq]
  simp only [val_main_v2_apply, idx_row3, quat_eq, val_main_cst_apply, val_main_cst_0_apply, Ideal.ofBits_def,
    Ideal.ofBits_zero_f32, zero_add, Ideal.mulf_def, Ideal.hostDivf_def, Ideal.hostUnary_sqrt_def, Ideal.maximumf_def]
  rfl

/-! ## The six distances -/

/-- The first prediction's position distance at sample `R`. -/
theorem dist_p1 (x0 : A3) (x6 : A7) (R : Fin 1048576) :
    val_main_v13 (F := Ideal) x0 x6 (ix1 R) = dist3 (rowOf x0 R) (pos (rowOf x6 R)) := by
  rw [val_main_v13_apply, val_main_v12_apply]
  simp only [val_main_v11_apply, val_main_v10_apply, idx_row12, pos_eq, val_main_cst_1_apply, Ideal.ofBits_def,
    Ideal.ofBits_zero_f32, zero_add, Ideal.mulf_def, Ideal.subf_def, Ideal.hostUnary_sqrt_def]
  rfl

/-- The second prediction's position distance at sample `R`. -/
theorem dist_p2 (x2 : A3) (x6 : A7) (R : Fin 1048576) :
    val_main_v24 (F := Ideal) x2 x6 (ix1 R) = dist3 (rowOf x2 R) (pos (rowOf x6 R)) := by
  rw [val_main_v24_apply, val_main_v23_apply]
  simp only [val_main_v22_apply, val_main_v21_apply, idx_row23, pos_eq, val_main_cst_4_apply, Ideal.ofBits_def,
    Ideal.ofBits_zero_f32, zero_add, Ideal.mulf_def, Ideal.subf_def, Ideal.hostUnary_sqrt_def]
  rfl

/-- The third prediction's position distance at sample `R`. -/
theorem dist_p3 (x4 : A3) (x6 : A7) (R : Fin 1048576) :
    val_main_v35 (F := Ideal) x4 x6 (ix1 R) = dist3 (rowOf x4 R) (pos (rowOf x6 R)) := by
  rw [val_main_v35_apply, val_main_v34_apply]
  simp only [val_main_v33_apply, val_main_v32_apply, idx_row34, pos_eq, val_main_cst_7_apply, Ideal.ofBits_def,
    Ideal.ofBits_zero_f32, zero_add, Ideal.mulf_def, Ideal.subf_def, Ideal.hostUnary_sqrt_def]
  rfl

/-- The first prediction's quaternion distance at sample `R`. -/
theorem dist_q1 (x1 : A4) (x6 : A7) (R : Fin 1048576) :
    val_main_v17 (F := Ideal) x1 x6 (ix1 R) = dist4 (rowOf x1 R) (quatN (rowOf x6 R)) := by
  rw [val_main_v17_apply, val_main_v16_apply]
  simp only [val_main_v15_apply, val_main_v14_apply, idx_row16, quatN_eq, val_main_cst_2_apply, Ideal.ofBits_def,
    Ideal.ofBits_zero_f32, zero_add, Ideal.mulf_def, Ideal.subf_def, Ideal.hostUnary_sqrt_def]
  rfl

/-- The second prediction's quaternion distance at sample `R`. -/
theorem dist_q2 (x3 : A4) (x6 : A7) (R : Fin 1048576) :
    val_main_v28 (F := Ideal) x3 x6 (ix1 R) = dist4 (rowOf x3 R) (quatN (rowOf x6 R)) := by
  rw [val_main_v28_apply, val_main_v27_apply]
  simp only [val_main_v26_apply, val_main_v25_apply, idx_row27, quatN_eq, val_main_cst_5_apply, Ideal.ofBits_def,
    Ideal.ofBits_zero_f32, zero_add, Ideal.mulf_def, Ideal.subf_def, Ideal.hostUnary_sqrt_def]
  rfl

/-- The third prediction's quaternion distance at sample `R`. -/
theorem dist_q3 (x5 : A4) (x6 : A7) (R : Fin 1048576) :
    val_main_v39 (F := Ideal) x5 x6 (ix1 R) = dist4 (rowOf x5 R) (quatN (rowOf x6 R)) := by
  rw [val_main_v39_apply, val_main_v38_apply]
  simp only [val_main_v37_apply, val_main_v36_apply, idx_row38, quatN_eq, val_main_cst_8_apply, Ideal.ofBits_def,
    Ideal.ofBits_zero_f32, zero_add, Ideal.mulf_def, Ideal.subf_def, Ideal.hostUnary_sqrt_def]
  rfl

/-! ## One sample's number, and the mean -/

/-- The weighted sum of the six distances at sample `R` is that sample's loss. -/
theorem sample_eq (x0 : A3) (x1 : A4) (x2 : A3) (x3 : A4) (x4 : A3) (x5 : A4) (x6 : A7) (R : Fin 1048576) :
    val_main_v50 (F := Ideal) x0 x1 x2 x3 x4 x5 x6 (ix1 R) = sampleLoss x0 x1 x2 x3 x4 x5 x6 R := by
  rw [val_main_v50_apply, val_main_v47_apply, val_main_v49_apply, val_main_v44_apply, val_main_v46_apply,
    val_main_v42_apply, val_main_v20_apply, val_main_v31_apply, val_main_v41_apply, val_main_v19_apply,
    val_main_v30_apply, val_main_v43_apply, val_main_v45_apply, val_main_v48_apply, val_main_v18_apply,
    val_main_v29_apply, val_main_v40_apply, dist_p1, dist_p2, dist_p3, dist_q1, dist_q2, dist_q3]
  simp only [val_main_cst_3_apply, val_main_cst_6_apply, val_main_cst_9_apply, val_main_cst_10_apply,
    val_main_cst_11_apply, val_main_cst_12_apply, Ideal.ofBits_def, Ideal.mulf_def, Ideal.addf_def]
  rfl

/-- The reference's result: the samples' losses added up and divided by the sample count. -/
theorem result_eq (x0 : A3) (x1 : A4) (x2 : A3) (x3 : A4) (x4 : A3) (x5 : A4) (x6 : A7) (i : S_.Idx) :
    val_main_v52 (F := Ideal) x0 x1 x2 x3 x4 x5 x6 i = meanLoss x0 x1 x2 x3 x4 x5 x6 := by
  rw [val_main_v52_apply, val_main_v51_apply, ColumnOps.sum_idx1]
  simp only [sample_eq, val_main_cst_13_apply, val_main_cst_14_apply, Ideal.ofBits_def, Ideal.ofBits_zero_f32,
    zero_add, Ideal.hostDivf_def]
  rfl

end Cert.ReferenceIdeal.RefValue

end
-- ==== Proof.KernelPieces.lean ====
/-
  What the kernel body leaves in the output block's staging buffer, per control case, as a value. At the first tile
  of a chunk the body first stores the zero block, reads it back and stores the zero block plus the tile's broadcast
  sum; at every later tile it stores the carried contents plus the tile's broadcast sum. Both are one pure term of the
  seven input blocks (and the carried contents): the body's last store's payload.
-/
import proofs.«143192_j90555090468868_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The block a tile adds to: the carried contents `acc` plus the tile's sum, as the body's last payload over the
    seven input blocks. -/
abbrev tileOut (x0 : Vec F S2048x3 .f32) (x1 : Vec F S2048x4 .f32) (x2 : Vec F S2048x3 .f32) (x3 : Vec F S2048x4 .f32)
    (x4 : Vec F S2048x3 .f32) (x5 : Vec F S2048x4 .f32) (x6 : Vec F S2048x7 .f32) (acc : Vec F S1x8x128 .f32) :
    Vec F S1x8x128 .f32 :=
  k0_pay1 (k0_pay3 x6) (k0_pay4 x6) (k0_pay5 x6 x0 x1) (k0_pay6 x6 x2) (k0_pay7 x6 x3) x4 x5 acc

/-- A later tile of a chunk: the one store's payload, its loads reading the whole buffers. -/
theorem out_B (c : Dev nD) (i : grid0.Coords) (arg2 : Memref sig .tc .vmem S2048x3 .f32) (harg2 : arg2.IsWhole) (arg3 : Memref sig .tc .vmem S2048x4 .f32) (harg3 : arg3.IsWhole) (arg4 : Memref sig .tc .vmem S2048x3 .f32) (harg4 : arg4.IsWhole) (arg5 : Memref sig .tc .vmem S2048x4 .f32) (harg5 : arg5.IsWhole) (arg6 : Memref sig .tc .vmem S2048x3 .f32) (harg6 : arg6.IsWhole) (arg7 : Memref sig .tc .vmem S2048x4 .f32) (harg7 : arg7.IsWhole) (arg8 : Memref sig .tc .vmem S2048x7 .f32) (harg8 : arg8.IsWhole) (arg9 : Memref sig .tc .vmem S1x8x128 .f32) (harg9 : arg9.IsWhole) (hc0 : ¬cond0_0 i) (x0 : Vec F S2048x3 .f32) (x1 : Vec F S2048x4 .f32) (x2 : Vec F S2048x3 .f32) (x3 : Vec F S2048x4 .f32) (x4 : Vec F S2048x3 .f32) (x5 : Vec F S2048x4 .f32) (x6 : Vec F S2048x7 .f32) (xo7 : Vec F S1x8x128 .f32) :
    out0_B_7 c i arg2 harg2 arg3 harg3 arg4 harg4 arg5 harg5 arg6 harg6 arg7 harg7 arg8 harg8 arg9 harg9 hc0 x0 x1 x2 x3 x4 x5 x6 xo7 = tileOut x0 x1 x2 x3 x4 x5 x6 xo7 := by
  unfold out0_B_7
  rw [View.read_writes_eq_canon _ _ _ (cover0_B_7 c i arg2 harg2 arg3 harg3 arg4 harg4 arg5 harg5 arg6 harg6 arg7 harg7 arg8 harg8 arg9 harg9 hc0 x0 x1 x2 x3 x4 x5 x6 xo7)]
  unfold kernelRun0_B
  dsimp only
  sl_unfold_words
  rw [View.canon_unit_zero hz3]
  simp only [View.readAt_eq_ld, harg2.read_unread, harg3.read_unread, harg4.read_unread, harg5.read_unread,
    harg6.read_unread, harg7.read_unread, harg8.read_unread, harg9.read_unread, View.ld_unit_zero (S := S2048x3) hz2,
    View.ld_unit_zero (S := S2048x4) hz2, View.ld_unit_zero (S := S2048x7) hz2, View.ld_unit_zero (S := S1x8x128) hz3]

/-- The first tile of a chunk: the zero block stored, read back, and added to. -/
theorem out_A (c : Dev nD) (i : grid0.Coords) (arg2 : Memref sig .tc .vmem S2048x3 .f32) (harg2 : arg2.IsWhole) (arg3 : Memref sig .tc .vmem S2048x4 .f32) (harg3 : arg3.IsWhole) (arg4 : Memref sig .tc .vmem S2048x3 .f32) (harg4 : arg4.IsWhole) (arg5 : Memref sig .tc .vmem S2048x4 .f32) (harg5 : arg5.IsWhole) (arg6 : Memref sig .tc .vmem S2048x3 .f32) (harg6 : arg6.IsWhole) (arg7 : Memref sig .tc .vmem S2048x4 .f32) (harg7 : arg7.IsWhole) (arg8 : Memref sig .tc .vmem S2048x7 .f32) (harg8 : arg8.IsWhole) (arg9 : Memref sig .tc .vmem S1x8x128 .f32) (harg9 : arg9.IsWhole) (hc0 : cond0_0 i) (x0 : Vec F S2048x3 .f32) (x1 : Vec F S2048x4 .f32) (x2 : Vec F S2048x3 .f32) (x3 : Vec F S2048x4 .f32) (x4 : Vec F S2048x3 .f32) (x5 : Vec F S2048x4 .f32) (x6 : Vec F S2048x7 .f32) :
    out0_A_7 c i arg2 harg2 arg3 harg3 arg4 harg4 arg5 harg5 arg6 harg6 arg7 harg7 arg8 harg8 arg9 harg9 hc0 x0 x1 x2 x3 x4 x5 x6 = tileOut x0 x1 x2 x3 x4 x5 x6 (k0_pay2 (F := F)) := by
  unfold out0_A_7
  rw [View.read_writes_eq_canon _ _ _ (cover0_A_7 c i arg2 harg2 arg3 harg3 arg4 harg4 arg5 harg5 arg6 harg6 arg7 harg7 arg8 harg8 arg9 harg9 hc0 x0 x1 x2 x3 x4 x5 x6)]
  unfold kernelRun0_A
  dsimp only
  sl_unfold_words
  rw [View.canon_cons_unit_zero (S := S1x8x128) hz3, View.readCov_unit_zero (S := S1x8x128) _ hz3]
  simp only [View.readAt_eq_ld, harg2.read_unread, harg3.read_unread, harg4.read_unread, harg5.read_unread,
    harg6.read_unread, harg7.read_unread, harg8.read_unread, View.ld_unit_zero (S := S2048x3) hz2,
    View.ld_unit_zero (S := S2048x4) hz2, View.ld_unit_zero (S := S2048x7) hz2]

end Cert.KernelIdeal.Pieces

end
-- ==== Proof.KernelTile.lean ====
/-
  The kernel body's arithmetic, read at an index, on the extended reals. For one tile of 2048 samples the body
  computes, row by row, the per-sample loss of the seven input blocks' rows, sums the 2048 numbers, spreads the sum over
  an 8 × 128 block and adds it to the carried block. So every entry of the stored block is the carried entry plus the
  sum of the tile's per-sample losses.
-/
import proofs.«143192_j90555090468868_1_alg».proof.Proof.Gen.KernelIdeal.Skeleton
import proofs.«143192_j90555090468868_1_alg».proof.Proof.RowLoss
import proofs.«143192_j90555090468868_1_alg».proof.Proof.ColumnOps

noncomputable section

open scoped BigOperators

namespace Cert.KernelIdeal.Tile

open Cert.KernelIdeal Cert.KernelIdeal.Gen Idealize.ShloMosaic Idealize.ShloMosaic.ValueIdx PoseLoss PoseLoss.ColumnOps

abbrev B3 := Vec Ideal S2048x3 .f32
abbrev B4 := Vec Ideal S2048x4 .f32
abbrev B7 := Vec Ideal S2048x7 .f32

theorem sqrt_apply {s : Shape} {φ : FTy} (a : FVec Ideal s φ) (i : s.Idx) : sqrt a i = Ideal.sqrt (a i) := rfl

/-- The position columns of the ground-truth block at row `r`. -/
theorem pos_apply (x6 : B7) (r : Fin 2048) (k : Fin 3) : k0_pay3 (F := Ideal) x6 (ix2 r k) = pos (rowOf x6 r) k := by
  unfold k0_pay3
  exact sliceCols_apply 0 x6 _ r k ⟨k.val, by have := k.isLt; omega⟩ (Nat.zero_add _).symm

/-- The quaternion columns of the ground-truth block at row `r`. -/
theorem quat_apply (x6 : B7) (r : Fin 2048) (k : Fin 4) :
    extractStridedSlice S2048x4 ![0, 3] x6 slices_S2048x7_o0_3_S2048x4 (ix2 r k) = quat (rowOf x6 r) k :=
  sliceCols_apply 3 x6 _ r k ⟨3 + k.val, by have := k.isLt; omega⟩ rfl

/-- The normalised quaternion of the ground-truth block at row `r`. -/
theorem quatN_apply (x6 : B7) (r : Fin 2048) (k : Fin 4) :
    k0_pay4 (F := Ideal) x6 (ix2 r k) = quatN (rowOf x6 r) k := by
  unfold k0_pay4
  simp only [divf_apply, broadcastTo_col_apply, maximumf_apply, sqrt_apply, shapeCast_col_apply, broadcast_apply]
  rw [rowSum_apply]
  simp only [mulf_apply]
  unfold quatN
  refine congrArg₂ Ideal.div (quat_apply x6 r k) ?_
  refine congrArg (fun z => max (Ideal.sqrt z) (Ideal.ofBits .f32 0x2B8CBCCC#32)) (Finset.sum_congr rfl fun j _ => ?_)
  rw [quat_apply]

/-- A three-coordinate prediction block's distance to the ground-truth position, at row `r`. -/
theorem dist3_apply (x : B3) (x6 : B7) (r : Fin 2048) :
    sqrt (shapeCast S2048x1 (multiReduction .add [1] S2048 (mulf (subf x (k0_pay3 x6)) (subf x (k0_pay3 x6)))
      0x00000000#32 reduces_S2048x3_S2048 (.inl rfl) rfl) shapeCasts_S2048_S2048x1) (ix2 r (0 : Fin 1))
      = dist3 (rowOf x r) (pos (rowOf x6 r)) := by
  simp only [sqrt_apply, shapeCast_col_apply]
  rw [rowSum_apply]
  simp only [mulf_apply, subf_apply, pos_apply]
  rfl

/-- A four-coordinate prediction block's distance to the normalised ground-truth quaternion, at row `r`. -/
theorem dist4_apply (x : B4) (x6 : B7) (r : Fin 2048) :
    sqrt (shapeCast S2048x1 (multiReduction .add [1] S2048 (mulf (subf x (k0_pay4 x6)) (subf x (k0_pay4 x6)))
      0x00000000#32 reduces_S2048x4_S2048 (.inl rfl) rfl) shapeCasts_S2048_S2048x1) (ix2 r (0 : Fin 1))
      = dist4 (rowOf x r) (quatN (rowOf x6 r)) := by
  simp only [sqrt_apply, shapeCast_col_apply]
  rw [rowSum_apply]
  simp only [mulf_apply, subf_apply, quatN_apply]
  rfl

/-- THE TILE. Every entry of the block the body stores is the carried entry plus the sum, over the tile's 2048 rows,
    of the per-sample loss of the seven blocks' rows. -/
theorem tile_apply (x0 : B3) (x1 : B4) (x2 : B3) (x3 : B4) (x4 : B3) (x5 : B4) (x6 : B7)
    (acc : Vec Ideal S1x8x128 .f32) (a : Fin 8) (b : Fin 128) :
    k0_pay1 (F := Ideal) (k0_pay3 x6) (k0_pay4 x6) (k0_pay5 x6 x0 x1) (k0_pay6 x6 x2) (k0_pay7 x6 x3) x4 x5 acc
        (ix3 (0 : Fin 1) a b)
      = acc (ix3 (0 : Fin 1) a b) + ∑ r : Fin 2048, sampleLoss x0 x1 x2 x3 x4 x5 x6 r := by
  unfold k0_pay1 k0_pay5 k0_pay6 k0_pay7
  simp only [addf_apply, shapeCast_self, shapeCast_ab_1ab_apply, broadcastTo_one_apply, shapeCast_a_1a_apply]
  rw [colSum_apply]
  refine congrArg (acc (ix3 (0 : Fin 1) a b) + ·) (Finset.sum_congr rfl fun r _ => ?_)
  simp only [addf_apply, mulf_apply, broadcast_apply]
  rw [dist3_apply x0 x6 r, dist4_apply x1 x6 r, dist3_apply x2 x6 r, dist4_apply x3 x6 r, dist3_apply x4 x6 r,
    dist4_apply x5 x6 r]
  rfl

end Cert.KernelIdeal.Tile

end
-- ==== Proof.KernelAcc.lean ====
/-
  The kernel's grid, point by point. The grid has two chunks of 256 tiles; tile `t` (counted over both chunks) is
  rows `2048·t … 2048·t + 2047` of every argument array. The output block of a chunk is carried in its staging buffer
  from tile to tile: zeroed at the chunk's first tile, added to at every tile, written back after the chunk's last.
  So after tile `t` every entry of the buffer is the sum of the per-sample losses of all samples from the chunk's first
  row to tile `t`'s last row (induction on the tile), and after the run entry `(c, a, b)` of the output array is the
  sum over chunk `c`'s half of the samples.
-/
import proofs.«143192_j90555090468868_1_alg».proof.Proof.Gen.KernelIdeal.Frame
import proofs.«143192_j90555090468868_1_alg».proof.Proof.KernelPieces
import proofs.«143192_j90555090468868_1_alg».proof.Proof.KernelTile
import proofs.«143192_j90555090468868_1_alg».proof.Proof.RowLoss
import proofs.«143192_j90555090468868_1_alg».proof.Proof.ColumnOps
import Idealize.ShloMosaic.Lib.Pipeline.Value

set_option maxRecDepth 16384

noncomputable section

open scoped BigOperators

namespace Cert.KernelIdeal.Acc

open Cert.KernelIdeal Cert.KernelIdeal.Gen Idealize.ShloMosaic Idealize.ShloMosaic.TcCoe Idealize.SL.Sem
open Idealize.ShloMosaic.ValueIdx PoseLoss
open Idealize.ShloMosaic.Pipeline (Dat)

variable (m : (ℓ : Loc nD τ sig) → Buf (Elt Ideal) ℓ) (ρ : Dev nD → PrngReg)

/-! ## The argument arrays as the region finds them, and the blocks the body loads -/

abbrev arr0 (c : Dev nD) : Vec Ideal S1048576x3 .f32 := V m c main_arg0
abbrev arr1 (c : Dev nD) : Vec Ideal S1048576x4 .f32 := V m c main_arg1
abbrev arr2 (c : Dev nD) : Vec Ideal S1048576x3 .f32 := V m c main_arg2
abbrev arr3 (c : Dev nD) : Vec Ideal S1048576x4 .f32 := V m c main_arg3
abbrev arr4 (c : Dev nD) : Vec Ideal S1048576x3 .f32 := V m c main_arg4
abbrev arr5 (c : Dev nD) : Vec Ideal S1048576x4 .f32 := V m c main_arg5
abbrev arr6 (c : Dev nD) : Vec Ideal S1048576x7 .f32 := V m c main_arg6

abbrev blk0 (c : Dev nD) (t : Fin cfg0.N) : Vec Ideal S2048x3 .f32 := iblk m c 0 t
abbrev blk1 (c : Dev nD) (t : Fin cfg0.N) : Vec Ideal S2048x4 .f32 := iblk m c 1 t
abbrev blk2 (c : Dev nD) (t : Fin cfg0.N) : Vec Ideal S2048x3 .f32 := iblk m c 2 t
abbrev blk3 (c : Dev nD) (t : Fin cfg0.N) : Vec Ideal S2048x4 .f32 := iblk m c 3 t
abbrev blk4 (c : Dev nD) (t : Fin cfg0.N) : Vec Ideal S2048x3 .f32 := iblk m c 4 t
abbrev blk5 (c : Dev nD) (t : Fin cfg0.N) : Vec Ideal S2048x4 .f32 := iblk m c 5 t
abbrev blk6 (c : Dev nD) (t : Fin cfg0.N) : Vec Ideal S2048x7 .f32 := iblk m c 6 t

/-- Tile `t`'s row `r`, as a row of the whole arrays. -/
def gRow (t : Fin cfg0.N) (r : Fin 2048) : Fin 1048576 :=
  ⟨2048 * t.val + r.val, by
    have h : t.val < 512 := lt_of_lt_of_eq t.isLt (show cfg0.N = 512 from N_0)
    have := r.isLt; omega⟩

/-- Every input window's block index at point `t` is `(t, 0)`: decided over the grid. -/
theorem idx_in0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx_in1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem idx_in2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)
theorem idx_in3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)
theorem idx_in4 : ∀ t : Fin cfg0.N, win0_4.index t (0 : Fin 2) = t.val ∧ win0_4.index t (1 : Fin 2) = 0 :=
  (by decide +kernel : ∀ t : Fin grid0.N, win0_4.index t (0 : Fin 2) = t.val ∧ win0_4.index t (1 : Fin 2) = 0)
theorem idx_in5 : ∀ t : Fin cfg0.N, win0_5.index t (0 : Fin 2) = t.val ∧ win0_5.index t (1 : Fin 2) = 0 :=
  (by decide +kernel : ∀ t : Fin grid0.N, win0_5.index t (0 : Fin 2) = t.val ∧ win0_5.index t (1 : Fin 2) = 0)
theorem idx_in6 : ∀ t : Fin cfg0.N, win0_6.index t (0 : Fin 2) = t.val ∧ win0_6.index t (1 : Fin 2) = 0 :=
  (by decide +kernel : ∀ t : Fin grid0.N, win0_6.index t (0 : Fin 2) = t.val ∧ win0_6.index t (1 : Fin 2) = 0)

/-- The output window's block index at point `t` is `(t / 256, 0, 0)`: the chunk. -/
theorem idx_out : ∀ t : Fin cfg0.N, win0_7.index t (0 : Fin 3) = t.val / 256 ∧ win0_7.index t (1 : Fin 3) = 0
    ∧ win0_7.index t (2 : Fin 3) = 0 :=
  (by decide +kernel : ∀ t : Fin grid0.N, win0_7.index t (0 : Fin 3) = t.val / 256 ∧ win0_7.index t (1 : Fin 3) = 0
    ∧ win0_7.index t (2 : Fin 3) = 0)

/-! ## A block's row is a row of the array -/

theorem blk0_row (c : Dev nD) (t : Fin cfg0.N) (r : Fin 2048) :
    rowOf (blk0 m c t) r = rowOf (arr0 m c) (gRow t r) := by
  funext k
  show iblk m c 0 t (ix2 r k) = V m c main_arg0 (ix2 (gRow t r) k)
  unfold iblk
  rw [View.read_apply]
  show V m c main_arg0 _ = V m c main_arg0 _
  congr 1
  funext a
  apply Fin.ext
  have hi := idx_in0 t
  match a with
  | ⟨0, _⟩ => show win0_0.index t (0 : Fin 2) * 2048 + 1 * r.val = 2048 * t.val + r.val; rw [hi.1]; omega
  | ⟨1, _⟩ => show win0_0.index t (1 : Fin 2) * 3 + 1 * k.val = k.val; rw [hi.2]; omega

theorem blk1_row (c : Dev nD) (t : Fin cfg0.N) (r : Fin 2048) :
    rowOf (blk1 m c t) r = rowOf (arr1 m c) (gRow t r) := by
  funext k
  show iblk m c 1 t (ix2 r k) = V m c main_arg1 (ix2 (gRow t r) k)
  unfold iblk
  rw [View.read_apply]
  show V m c main_arg1 _ = V m c main_arg1 _
  congr 1
  funext a
  apply Fin.ext
  have hi := idx_in1 t
  match a with
  | ⟨0, _⟩ => show win0_1.index t (0 : Fin 2) * 2048 + 1 * r.val = 2048 * t.val + r.val; rw [hi.1]; omega
  | ⟨1, _⟩ => show win0_1.index t (1 : Fin 2) * 4 + 1 * k.val = k.val; rw [hi.2]; omega

theorem blk2_row (c : Dev nD) (t : Fin cfg0.N) (r : Fin 2048) :
    rowOf (blk2 m c t) r = rowOf (arr2 m c) (gRow t r) := by
  funext k
  show iblk m c 2 t (ix2 r k) = V m c main_arg2 (ix2 (gRow t r) k)
  unfold iblk
  rw [View.read_apply]
  show V m c main_arg2 _ = V m c main_arg2 _
  congr 1
  funext a
  apply Fin.ext
  have hi := idx_in2 t
  match a with
  | ⟨0, _⟩ => show win0_2.index t (0 : Fin 2) * 2048 + 1 * r.val = 2048 * t.val + r.val; rw [hi.1]; omega
  | ⟨1, _⟩ => show win0_2.index t (1 : Fin 2) * 3 + 1 * k.val = k.val; rw [hi.2]; omega

theorem blk3_row (c : Dev nD) (t : Fin cfg0.N) (r : Fin 2048) :
    rowOf (blk3 m c t) r = rowOf (arr3 m c) (gRow t r) := by
  funext k
  show iblk m c 3 t (ix2 r k) = V m c main_arg3 (ix2 (gRow t r) k)
  unfold iblk
  rw [View.read_apply]
  show V m c main_arg3 _ = V m c main_arg3 _
  congr 1
  funext a
  apply Fin.ext
  have hi := idx_in3 t
  match a with
  | ⟨0, _⟩ => show win0_3.index t (0 : Fin 2) * 2048 + 1 * r.val = 2048 * t.val + r.val; rw [hi.1]; omega
  | ⟨1, _⟩ => show win0_3.index t (1 : Fin 2) * 4 + 1 * k.val = k.val; rw [hi.2]; omega

theorem blk4_row (c : Dev nD) (t : Fin cfg0.N) (r : Fin 2048) :
    rowOf (blk4 m c t) r = rowOf (arr4 m c) (gRow t r) := by
  funext k
  show iblk m c 4 t (ix2 r k) = V m c main_arg4 (ix2 (gRow t r) k)
  unfold iblk
  rw [View.read_apply]
  show V m c main_arg4 _ = V m c main_arg4 _
  congr 1
  funext a
  apply Fin.ext
  have hi := idx_in4 t
  match a with
  | ⟨0, _⟩ => show win0_4.index t (0 : Fin 2) * 2048 + 1 * r.val = 2048 * t.val + r.val; rw [hi.1]; omega
  | ⟨1, _⟩ => show win0_4.index t (1 : Fin 2) * 3 + 1 * k.val = k.val; rw [hi.2]; omega

theorem blk5_row (c : Dev nD) (t : Fin cfg0.N) (r : Fin 2048) :
    rowOf (blk5 m c t) r = rowOf (arr5 m c) (gRow t r) := by
  funext k
  show iblk m c 5 t (ix2 r k) = V m c main_arg5 (ix2 (gRow t r) k)
  unfold iblk
  rw [View.read_apply]
  show V m c main_arg5 _ = V m c main_arg5 _
  congr 1
  funext a
  apply Fin.ext
  have hi := idx_in5 t
  match a with
  | ⟨0, _⟩ => show win0_5.index t (0 : Fin 2) * 2048 + 1 * r.val = 2048 * t.val + r.val; rw [hi.1]; omega
  | ⟨1, _⟩ => show win0_5.index t (1 : Fin 2) * 4 + 1 * k.val = k.val; rw [hi.2]; omega

theorem blk6_row (c : Dev nD) (t : Fin cfg0.N) (r : Fin 2048) :
    rowOf (blk6 m c t) r = rowOf (arr6 m c) (gRow t r) := by
  funext k
  show iblk m c 6 t (ix2 r k) = V m c main_arg6 (ix2 (gRow t r) k)
  unfold iblk
  rw [View.read_apply]
  show V m c main_arg6 _ = V m c main_arg6 _
  congr 1
  funext a
  apply Fin.ext
  have hi := idx_in6 t
  match a with
  | ⟨0, _⟩ => show win0_6.index t (0 : Fin 2) * 2048 + 1 * r.val = 2048 * t.val + r.val; rw [hi.1]; omega
  | ⟨1, _⟩ => show win0_6.index t (1 : Fin 2) * 7 + 1 * k.val = k.val; rw [hi.2]; omega

/-! ## A tile's sum is a run of the samples' losses -/

/-- Sample `R`'s loss, for every natural `R` (zero past the last sample, where it is never used). -/
def lossN (c : Dev nD) (R : ℕ) : EReal :=
  if h : R < 1048576 then sampleLoss (arr0 m c) (arr1 m c) (arr2 m c) (arr3 m c) (arr4 m c) (arr5 m c) (arr6 m c) ⟨R, h⟩ else 0

/-- The losses of tile `t`'s 2048 rows add up to the run of samples `2048·t … 2048·(t+1) - 1`. -/
theorem tile_sum (c : Dev nD) (t : Fin cfg0.N) :
    ∑ r : Fin 2048, sampleLoss (blk0 m c t) (blk1 m c t) (blk2 m c t) (blk3 m c t) (blk4 m c t) (blk5 m c t) (blk6 m c t) r
      = ∑ R ∈ Finset.Ico (2048 * t.val) (2048 * (t.val + 1)), lossN m c R := by
  rw [Finset.sum_Ico_eq_sum_range, show 2048 * (t.val + 1) - 2048 * t.val = 2048 by omega,
    ← Fin.sum_univ_eq_sum_range (fun x => lossN m c (2048 * t.val + x)) 2048]
  refine Finset.sum_congr rfl fun r _ => ?_
  unfold lossN sampleLoss
  rw [dif_pos (show 2048 * t.val + r.val < 1048576 from (gRow t r).isLt), blk0_row, blk1_row, blk2_row, blk3_row, blk4_row, blk5_row, blk6_row]
  rfl

/-! ## The staging buffer after each point -/

/-- The zero block's entries are zero. -/
theorem zero_entry (i : S1x8x128.Idx) : k0_pay2 (F := Ideal) i = 0 := Ideal.ofBits_zero_f32

/-- At a chunk's first tile the buffer ends at that tile's run of losses. -/
theorem reset_eq (c : Dev nD) (t : Fin cfg0.N) (h0 : t.val % 256 = 0) (a : Fin 8) (b : Fin 128) :
    outsAt0 m c t.val t.isLt (ix3 (0 : Fin 1) a b)
      = ∑ R ∈ Finset.Ico (2048 * t.val) (2048 * (t.val + 1)), lossN m c R := by
  rw [outsAt0_A m c t h0, Pieces.out_A]
  refine (Tile.tile_apply (blk0 m c t) (blk1 m c t) (blk2 m c t) (blk3 m c t) (blk4 m c t) (blk5 m c t) (blk6 m c t) (k0_pay2 (F := Ideal)) a b).trans ?_
  rw [zero_entry, zero_add, tile_sum]

/-- At every other tile it ends at what the tile before left plus this tile's run of losses. -/
theorem step_eq (c : Dev nD) (t : Fin cfg0.N) (h0 : ¬t.val % 256 = 0) (a : Fin 8) (b : Fin 128) :
    outsAt0 m c t.val t.isLt (ix3 (0 : Fin 1) a b)
      = outsAt0 m c (t.val - 1) (Nat.lt_of_le_of_lt (Nat.sub_le _ _) t.isLt) (ix3 (0 : Fin 1) a b)
        + ∑ R ∈ Finset.Ico (2048 * t.val) (2048 * (t.val + 1)), lossN m c R := by
  rw [outsAt0_B m c t h0, Pieces.out_B]
  refine (Tile.tile_apply (blk0 m c t) (blk1 m c t) (blk2 m c t) (blk3 m c t) (blk4 m c t) (blk5 m c t) (blk6 m c t)
    (outsAt0 m c (t.val - 1) (Nat.lt_of_le_of_lt (Nat.sub_le _ _) t.isLt)) a b).trans ?_
  rw [tile_sum]

/-- THE RUNNING SUM. After point `n` every entry of the buffer is the sum of the losses of the samples from the
    chunk's first row (`2048·(n - n mod 256)`) to tile `n`'s last: by induction on the point. -/
theorem outsAt_eq (c : Dev nD) : ∀ (n : ℕ) (hn : n < cfg0.N) (a : Fin 8) (b : Fin 128),
    outsAt0 m c n hn (ix3 (0 : Fin 1) a b)
      = ∑ R ∈ Finset.Ico (2048 * (n - n % 256)) (2048 * (n + 1)), lossN m c R
  | 0, hn, a, b => reset_eq m c ⟨0, hn⟩ rfl a b
  | n + 1, hn, a, b => by
    by_cases h0 : (n + 1) % 256 = 0
    · have hr := reset_eq m c ⟨n + 1, hn⟩ h0 a b
      rw [show n + 1 - (n + 1) % 256 = n + 1 by omega]
      exact hr
    · have hs : outsAt0 m c (n + 1) hn (ix3 (0 : Fin 1) a b)
          = outsAt0 m c n (Nat.lt_of_succ_lt hn) (ix3 (0 : Fin 1) a b)
            + ∑ R ∈ Finset.Ico (2048 * (n + 1)) (2048 * (n + 1 + 1)), lossN m c R :=
        step_eq m c ⟨n + 1, hn⟩ h0 a b
      have ih := outsAt_eq c n (Nat.lt_of_succ_lt hn) a b
      rw [show n + 1 - (n + 1) % 256 = n - n % 256 by omega, hs, ih]
      exact Finset.sum_Ico_consecutive _ (by omega) (by omega)

/-! ## The output array after the run -/

/-- Entry `(c', a, b)` of the output array: the sum of the losses of chunk `c'`'s half of the samples. -/
def chunkSums (c : Dev nD) : Vec Ideal S2x8x128 .f32 := fun i =>
  ∑ R ∈ Finset.Ico (524288 * (i 0).val) (524288 * ((i 0).val + 1)), lossN m c R

/-- What a chunk's last tile writes back is the chunk's block of `chunkSums`. -/
theorem flushed_eq (c : Dev nD) (t : Fin cfg0.N) (hf : (cfg0.win 7).flush t = true) :
    (dats m 0 c).flushed 7 t = ((cfg0.win 7).blk t).view.read (Elt Ideal) (chunkSums m c) := by
  have h255 : t.val % 256 = 255 := (flush0_7 t).mp hf
  have hN : t.val < 512 := lt_of_lt_of_eq t.isLt (show cfg0.N = 512 from N_0)
  show (cfg0.win 7).cut (grid0.coords t) ((dats m 0 c).after 7 t) = _
  rw [after0_7]
  funext y
  show outsAt0 m c t.val t.isLt y = chunkSums m c (((cfg0.win 7).blk t).view.emb y)
  have hy : y = ix3 (0 : Fin 1) (y 1) (y 2) := by
    funext d
    match d with
    | ⟨0, _⟩ => exact Fin.ext (by have h1 : (y 0).val < 1 := (y 0).isLt; show (y 0).val = 0; omega)
    | ⟨1, _⟩ => rfl
    | ⟨2, _⟩ => rfl
  have e0 : ((((cfg0.win 7).blk t).view.emb y) 0).val = t.val / 256 := by
    show win0_7.index t (0 : Fin 3) * 1 + 1 * (y 0).val = t.val / 256
    rw [(idx_out t).1]; have h1 : (y 0).val < 1 := (y 0).isLt; omega
  refine (congrArg (outsAt0 m c t.val t.isLt) hy).trans ((outsAt_eq m c t.val t.isLt (y 1) (y 2)).trans ?_)
  unfold chunkSums
  rw [e0, show 2048 * (t.val - t.val % 256) = 524288 * (t.val / 256) by omega,
    show 2048 * (t.val + 1) = 524288 * (t.val / 256 + 1) by omega]

/-- An index of the output array is in point `t`'s block iff each coordinate is in the block's range on its axis. -/
theorem mem_blk (t : Fin cfg0.N) (i : S2x8x128.Idx) :
    i ∈ ((cfg0.win 7).blk t).view.set ↔ ∀ a : Fin 3, win0_7.index t a * S1x8x128.size a ≤ (i a).val
      ∧ (i a).val < win0_7.index t a * S1x8x128.size a + S1x8x128.size a := by
  show i ∈ ((View.whole main_v0).slice (win0_7.rect t)).set ↔ _
  rw [View.set_slice_whole, Rect.mem_set_unit]
  exact Iff.rfl

/-- Every entry of the output array is in the block of its chunk's last tile, which is written back. -/
theorem cover (c : Dev nD) (i : S2x8x128.Idx) :
    ∃ t : Fin cfg0.N, (cfg0.win 7).flush t = true ∧ i ∈ ((cfg0.win 7).blk t).view.set := by
  have hi0 : (i 0).val < 2 := (i 0).isLt
  have hi1 : (i 1).val < 8 := (i 1).isLt
  have hi2 : (i 2).val < 128 := (i 2).isLt
  have ht : 256 * (i 0).val + 255 < cfg0.N := by rw [show cfg0.N = 512 from N_0]; omega
  refine ⟨⟨256 * (i 0).val + 255, ht⟩, (flush0_7 _).mpr (by show (256 * (i 0).val + 255) % 256 = 255; omega), ?_⟩
  rw [mem_blk]
  obtain ⟨x0, x1, x2⟩ := idx_out ⟨256 * (i 0).val + 255, ht⟩
  have x0' : win0_7.index ⟨256 * (i 0).val + 255, ht⟩ (0 : Fin 3) = (256 * (i 0).val + 255) / 256 := x0
  intro a
  match a with
  | ⟨0, _⟩ =>
    show win0_7.index ⟨256 * (i 0).val + 255, ht⟩ (0 : Fin 3) * 1 ≤ (i 0).val
      ∧ (i 0).val < win0_7.index ⟨256 * (i 0).val + 255, ht⟩ (0 : Fin 3) * 1 + 1
    rw [x0']; omega
  | ⟨1, _⟩ =>
    show win0_7.index ⟨256 * (i 0).val + 255, ht⟩ (1 : Fin 3) * 8 ≤ (i 1).val
      ∧ (i 1).val < win0_7.index ⟨256 * (i 0).val + 255, ht⟩ (1 : Fin 3) * 8 + 8
    rw [x1]; omega
  | ⟨2, _⟩ =>
    show win0_7.index ⟨256 * (i 0).val + 255, ht⟩ (2 : Fin 3) * 128 ≤ (i 2).val
      ∧ (i 2).val < win0_7.index ⟨256 * (i 0).val + 255, ht⟩ (2 : Fin 3) * 128 + 128
    rw [x2]; omega

/-- THE OUTPUT ARRAY after the run: the two chunks' sums, each spread over its 8 × 128 block. -/
theorem final (c : Dev nD) : (dats m 0 c).arrAt 7 cfg0.N = chunkSums m c :=
  (dats m 0 c).arrAt_eq_of_cover 7 (chunkSums m c) (flushed_eq m c) (cover c)

end Cert.KernelIdeal.Acc

end
-- ==== Proof.KernelValue.lean ====
/-
  The kernel program's result. After the region the host picks entry `(c, 0, 0)` of each chunk's block, adds the two
  numbers and divides by the sample count. The two chunks' sums are the sums over the two halves of the samples, so the
  result is the mean of all the samples' losses: the same number the reference computes, the additions grouped by
  chunk and tile instead of all at once.
-/
import proofs.«143192_j90555090468868_1_alg».proof.Proof.KernelAcc
import Idealize.ShloMosaic.Lib.StableHlo.Run

set_option maxRecDepth 16384

noncomputable section

open scoped BigOperators

namespace Cert.KernelIdeal.Value

open Cert.KernelIdeal Cert.KernelIdeal.Gen Cert.KernelIdeal.Acc Idealize.ShloMosaic Idealize.ShloMosaic.TcCoe Idealize.SL.Sem
open Idealize.ShloMosaic.ValueIdx Idealize.ShloMosaic.StableHlo PoseLoss
open Idealize.ShloMosaic.Pipeline (Dat)

variable (m : (ℓ : Loc nD τ sig) → Buf (Elt Ideal) ℓ) (ρ : Dev nD → PrngReg)

/-- The host's pick of one number per chunk: entry `(c', 0, 0)` of the output array. -/
theorem pick_apply (G : Vec Ideal S2x8x128 .f32) (a : Fin 2) :
    shapeCast S2 (extractStridedSlice S2x1x1 ![0, 0, 0] G slices_S2x8x128_S2x1x1_0_0_0) shapeCasts_S2x1x1_S2 (ix1 a)
      = G (ix3 a (0 : Fin 8) (0 : Fin 128)) := by
  refine (shapeCast_apply _ shapeCasts_S2x1x1_S2 (ix1 a) (ix3 a (0 : Fin 1) (0 : Fin 1)) ?_).trans ?_
  · rw [Shape.rowMajor_val_three, Shape.rowMajor_val_one]
    show (a.val * 1 + 0) * 1 + 0 = a.val
    omega
  · exact extractStridedSlice_apply ![0, 0, 0] G slices_S2x8x128_S2x1x1_0_0_0 (ix3 a (0 : Fin 1) (0 : Fin 1))
      (ix3 a (0 : Fin 8) (0 : Fin 128)) (fun ax => by
        match ax with
        | ⟨0, _⟩ => exact (Nat.zero_add _).symm
        | ⟨1, _⟩ => rfl
        | ⟨2, _⟩ => rfl)

/-- The two chunks' sums add up to the sum over all samples: two adjacent runs of the samples' losses. -/
theorem total_eq (c : Dev nD) :
    ∑ a : Fin 2, chunkSums m c (ix3 a (0 : Fin 8) (0 : Fin 128))
      = ∑ R : Fin 1048576, sampleLoss (arr0 m c) (arr1 m c) (arr2 m c) (arr3 m c) (arr4 m c) (arr5 m c) (arr6 m c) R := by
  rw [Fin.sum_univ_two]
  show (∑ R ∈ Finset.Ico 0 524288, lossN m c R) + (∑ R ∈ Finset.Ico 524288 1048576, lossN m c R) = _
  rw [Finset.sum_Ico_consecutive _ (by omega) (by omega), Nat.Ico_zero_eq_range, Finset.sum_range]
  refine Finset.sum_congr rfl fun R _ => ?_
  unfold lossN
  rw [dif_pos R.isLt]

/-- The host operations after the region, applied to the output array the region leaves: the mean loss. -/
theorem tail_eq (c : Dev nD) :
    Pipeline.afterTail₀ cfgs (dats m) 0 (V0 m) [hostOps1] c main_v4
      = fun _ => meanLoss (arr0 m c) (arr1 m c) (arr2 m c) (arr3 m c) (arr4 m c) (arr5 m c) (arr6 m c) := by
  unfold Pipeline.afterTail₀
  show StableHlo.after hostOps1 _ (Proc.devRef .tc main_v4) = _
  after_results
  have e : Pipeline.withArrays (cfgs 0).spec c (V0 m c) (fun w => (dats m 0 c).arrAt w (cfgs 0).N)
      (Proc.devRef .tc main_v0) = chunkSums m c :=
    (Pipeline.withArrays_arr spec0 launch0.win.arr_inj c _ _ 7).trans (final m c)
  rw [e]
  funext j
  show Ideal.div (Ideal.hostReduceAdd reducesTo_S2_S_d0
      (shapeCast S2 (extractStridedSlice S2x1x1 ![0, 0, 0] (chunkSums m c) slices_S2x8x128_S2x1x1_0_0_0)
        shapeCasts_S2x1x1_S2) (Ideal.ofBits .f32 0x00000000#32) j) (Ideal.ofBits .f32 0x49800000#32) = _
  rw [Ideal.hostReduceAdd_total reducesTo_S2_S_d0 (fun b => b.elim0), ColumnOps.sum_idx1, Ideal.ofBits_zero_f32,
    zero_add]
  have hp : ∑ a : Fin 2, shapeCast S2 (extractStridedSlice S2x1x1 ![0, 0, 0] (chunkSums m c)
      slices_S2x8x128_S2x1x1_0_0_0) shapeCasts_S2x1x1_S2 (ix1 a)
      = ∑ a : Fin 2, chunkSums m c (ix3 a (0 : Fin 8) (0 : Fin 128)) :=
    Finset.sum_congr rfl fun a _ => pick_apply (chunkSums m c) a
  rw [hp, total_eq]
  rfl

/-- THE KERNEL'S RUN, READ: every weakly fair execution terminates with the result at the mean loss of the argument
    arrays and the arguments unchanged. -/
theorem run : θ_run defs (onTc (τ := τ) (main (F := Ideal))) ⟨m, fun _ => 0, ρ⟩ fun r => ∀ c : Dev nD,
      r.2.mem ((c.tc : Thread nD τ).loc main_v4) = (fun _ => meanLoss (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
      ⟨((h c).2 main_v4 (Pipeline.mem_restRefs_of main_v4 rfl (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c)))⟩)
    (run_main m ρ)

end Cert.KernelIdeal.Value

end
-- ==== Proof.lean ====
/- The mean pose loss over 1,048,576 samples, computed two ways, is one number on the extended reals.
   A sample is three predicted poses (a position of three coordinates and a quaternion of four) and a ground-truth row
   of seven (a position, then a quaternion). Its loss (Proof/RowLoss.lean) is the weighted sum of six Euclidean
   distances: each predicted position to the ground-truth position, each predicted quaternion to the ground-truth
   quaternion divided by its own length (the length kept above a small constant).
   The reference computes every sample's loss with whole-array operations, adds all of them and divides by the sample
   count (Proof/RefValue.lean reads its stages at one sample). The kernel walks two chunks of 256 tiles of 2048 samples:
   a tile computes its samples' losses row by row and adds their sum into the chunk's block (Proof/KernelTile.lean,
   Proof/KernelPieces.lean), carried from tile to tile and zeroed at the chunk's first tile, so that after the chunk's
   last tile the block holds the sum over the chunk's half of the samples (Proof/KernelAcc.lean, by induction on the
   tile); the host then adds the two chunks' numbers and divides by the same count (Proof/KernelValue.lean).
   Both sides apply the same operations with the same constants to each sample; they differ only in how one sum of
   1,048,576 terms is grouped, and addition on the extended reals is commutative and associative — so no finiteness
   of the inputs is used. The idealization rewrote nothing, so it is preserved trivially; the three frames are the
   generated frame runs (the reference's: its generated run with the result dropped). -/
import proofs.«143192_j90555090468868_1_alg».proof.Defs
import proofs.«143192_j90555090468868_1_alg».proof.Proof.Gen.Kernel
import proofs.«143192_j90555090468868_1_alg».proof.Proof.Gen.Kernel.Skeleton
import proofs.«143192_j90555090468868_1_alg».proof.Proof.Gen.Kernel.Launch
import proofs.«143192_j90555090468868_1_alg».proof.Proof.Gen.Kernel.Points
import proofs.«143192_j90555090468868_1_alg».proof.Proof.Gen.Kernel.Frame
import proofs.«143192_j90555090468868_1_alg».proof.Proof.Gen.KernelIdeal
import proofs.«143192_j90555090468868_1_alg».proof.Proof.Gen.KernelIdeal.Skeleton
import proofs.«143192_j90555090468868_1_alg».proof.Proof.Gen.KernelIdeal.Launch
import proofs.«143192_j90555090468868_1_alg».proof.Proof.Gen.KernelIdeal.Points
import proofs.«143192_j90555090468868_1_alg».proof.Proof.Gen.KernelIdeal.Frame
import proofs.«143192_j90555090468868_1_alg».proof.Proof.Gen.ReferenceIdeal
import proofs.«143192_j90555090468868_1_alg».proof.Proof.Gen.Pre_finite_inputs
import proofs.«143192_j90555090468868_1_alg».proof.Proof.Gen.ReferenceIdeal.Run
import proofs.«143192_j90555090468868_1_alg».proof.Proof.Gen.ReferenceIdeal.Read
import proofs.«143192_j90555090468868_1_alg».proof.Proof.RowLoss
import proofs.«143192_j90555090468868_1_alg».proof.Proof.RefValue
import proofs.«143192_j90555090468868_1_alg».proof.Proof.KernelValue
import Idealize.ShloMosaic.Adequacy
import Idealize.ShloMosaic.Init

noncomputable section

namespace Cert.Proof

open Idealize.ShloMosaic Idealize.SL.Sem Cert.Kernel

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end at the mean loss of the argument arrays: the kernel by its run read through the grid
    (`Cert.KernelIdeal.Value.run`), the reference by its run read at a sample (`RefValue.result_eq`), from arguments
    that agree. -/
theorem algebraic : Cert.algebraic_KernelIdeal_ReferenceIdeal := by
  intro m ρ m' ρ' _ hagree
  refine ⟨fun c => fun _ => PoseLoss.meanLoss
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)),
    Cert.KernelIdeal.Value.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v52_eq, (hagree c).1, (hagree c).2.1, (hagree c).2.2.1, (hagree c).2.2.2.1,
    (hagree c).2.2.2.2.1, (hagree c).2.2.2.2.2.1, (hagree c).2.2.2.2.2.2]
  funext i
  exact Cert.ReferenceIdeal.RefValue.result_eq _ _ _ _ _ _ _ i

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
